-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x256 .f32) (main_arg1 : IVec S2x3200000 32) (main_arg2 : FVec F S256x1 .f32) (main_arg3 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S10000x256 : Shape := ⟨2, ![10000, 256]⟩
abbrev S10000x1 : Shape := ⟨2, ![10000, 1]⟩
abbrev S1x1 : Shape := ⟨2, ![1, 1]⟩

abbrev nBuf : Space → Nat
  | .hbm => 43
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x1, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000x1, .f32⟩
  | .hbm, ⟨35, _⟩ => ⟨S_, .f32⟩
  | .hbm, ⟨36, _⟩ => ⟨S100000x1, .f32⟩
  | .hbm, ⟨37, _⟩ => ⟨S3300000x1, .i32⟩
  | .hbm, ⟨38, _⟩ => ⟨S100000x1, .f32⟩
  | .hbm, ⟨39, _⟩ => ⟨S100000x1, .f32⟩
  | .hbm, ⟨40, _⟩ => ⟨S1x1, .f32⟩
  | .hbm, ⟨41, _⟩ => ⟨S100000x1, .f32⟩
  | .hbm, ⟨42, _⟩ => ⟨S100000x1, .f32⟩
  | .local _ .vmem, ⟨0, _⟩ => ⟨S10000x256, .f32⟩
  | .local _ .vmem, ⟨1, _⟩ => ⟨S10000x256, .f32⟩
  | .local _ .vmem, ⟨2, _⟩ => ⟨S256x1, .f32⟩
  | .local _ .vmem, ⟨3, _⟩ => ⟨S10000x1, .f32⟩
  | .local _ .vmem, ⟨4, _⟩ => ⟨S10000x1, .f32⟩
  | .local _ .vmem, ⟨5, _⟩ => ⟨S10000x1, .f32⟩
  | .local _ .vmem, ⟨6, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S10000x256_S10000x256_0_0 : ∀ a, (![0, 0] : Fin 2 → Nat) a + S10000x256.size a ≤ S10000x256.size a
  h_S10000x256 : 0 < S10000x256.numel
  inb_S256x1_S256x1_0_0 : ∀ a, (![0, 0] : Fin 2 → Nat) a + S256x1.size a ≤ S256x1.size a
  h_S256x1 : 0 < S256x1.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S10000x256_S256x1_S10000x1_1_0_0_1_n_n_wf : DotDims.WF S10000x256 S256x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x1, .f32⟩
  | .hbm, ⟨44, _⟩ => ⟨S3300000x1, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x1, .f32⟩
  | .hbm, ⟨54, _⟩ => ⟨S3300000x1, .f32⟩
  | .hbm, ⟨55, _⟩ => ⟨S_, .f32⟩
  | .hbm, ⟨56, _⟩ => ⟨S100000x1, .f32⟩
  | .hbm, ⟨57, _⟩ => ⟨S3300000x1, .i32⟩
  | .hbm, ⟨58, _⟩ => ⟨S100000x1, .f32⟩
  | .hbm, ⟨59, _⟩ => ⟨S1x1, .f32⟩
  | .hbm, ⟨60, _⟩ => ⟨S100000x1, .f32⟩
  | .hbm, ⟨61, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x1_S100000x1_1_0_0_1_n_n_wf : DotDims.WF S100000x256 S256x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelValue.lean ====
/-
  What the kernel region leaves in its output array, at the ideal instance.
  The region walks the 100000 node rows in 10 blocks of 10000. At a block the body multiplies the block of `x` (10000 × 256)
  by the whole weight column `W` (256 × 1) into a zero accumulator and scales row by row with the block of the node factors:
      s[r, 0] = dinv[r, 0] · Σ_k x[r, k] · W[k, 0].
  Every block's rows are rows of the arrays themselves (block `t` holds rows `10000·t … 10000·t + 9999`, the weight column is
  the same block at every point), so each written block is a block of ONE function of the three arrays, and the ten
  blocks tile the output: the output array ends holding that function.
-/
import proofs.«427858_j85693187489968_3_alg».proof.Proof.Gen.KernelIdeal.Frame
import Idealize.ShloMosaic.Lib.Pipeline.Value
import Idealize.ShloMosaic.Lib.ValueIdx
import Idealize.ShloMosaic.PureOps.Ideal.Laws

-- a rectangle's membership at these extents: the elaborator's structural look recurses once per coordinate
set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## The function the output array ends holding -/

/-- Row `i 0`, column `k` of the feature matrix. -/
abbrev featIdx (i : S100000x1.Idx) (k : Fin 256) : S100000x256.Idx := fun a => match a with
  | ⟨0, _⟩ => ⟨(i 0).val, (i 0).isLt⟩
  | ⟨1, _⟩ => ⟨k.val, k.isLt⟩
/-- Row `k`, column `i 1` of the weight column. -/
abbrev wgtIdx (i : S100000x1.Idx) (k : Fin 256) : S256x1.Idx := fun a => match a with
  | ⟨0, _⟩ => ⟨k.val, k.isLt⟩
  | ⟨1, _⟩ => ⟨(i 1).val, (i 1).isLt⟩

/-- The scaled projection: each node's factor times its feature row's product with the weight column. -/
def scaledProj (x : S100000x256.Idx → EReal) (w : S256x1.Idx → EReal) (d : S100000x1.Idx → EReal) :
    S100000x1.Idx → EReal :=
  fun i => d i * ∑ k : Fin 256, x (featIdx i k) * w (wgtIdx i k)

/-! ## The body's stored value at an index of a block -/

/-- Row `j 0`, column `k` of a block of the feature matrix. -/
abbrev featBlk (j : S10000x1.Idx) (k : Fin 256) : S10000x256.Idx := fun a => match a with
  | ⟨0, _⟩ => ⟨(j 0).val, (j 0).isLt⟩
  | ⟨1, _⟩ => ⟨k.val, k.isLt⟩
/-- Row `k`, column `j 1` of the weight column as the body loads it. -/
abbrev wgtBlk (j : S10000x1.Idx) (k : Fin 256) : S256x1.Idx := fun a => match a with
  | ⟨0, _⟩ => ⟨k.val, k.isLt⟩
  | ⟨1, _⟩ => ⟨(j 1).val, (j 1).isLt⟩

/-- The contraction's left operand index on the row axis is the output's row. -/
theorem lhs_dot_0 (i : S10000x1.Idx) (q : dot_S10000x256_S256x1_S10000x1_1_0_0_1_n_n.contr.Idx) :
    (dot_S10000x256_S256x1_S10000x1_1_0_0_1_n_n.lhsIdx i q 0).val = (i 0).val := by
  unfold DotDims.lhsIdx
  rw [dif_neg (show ¬(0 : Fin S10000x256.rank) ∈ dot_S10000x256_S256x1_S10000x1_1_0_0_1_n_n.lhsBatch by decide), dif_pos (show (0 : Fin S10000x256.rank) ∈ dot_S10000x256_S256x1_S10000x1_1_0_0_1_n_n.lhsNonContracting by decide)]
  rfl
/-- On the contracted axis it is the contraction's coordinate. -/
theorem lhs_dot_1 (i : S10000x1.Idx) (q : dot_S10000x256_S256x1_S10000x1_1_0_0_1_n_n.contr.Idx) :
    (dot_S10000x256_S256x1_S10000x1_1_0_0_1_n_n.lhsIdx i q 1).val = (q ⟨0, by decide⟩).val :=
  dot_S10000x256_S256x1_S10000x1_1_0_0_1_n_n.lhsIdx_val_of_single rfl i q
/-- The right operand index on its contracted axis is the contraction's coordinate. -/
theorem rhs_dot_0 (i : S10000x1.Idx) (q : dot_S10000x256_S256x1_S10000x1_1_0_0_1_n_n.contr.Idx) :
    (dot_S10000x256_S256x1_S10000x1_1_0_0_1_n_n.rhsIdx i q 0).val = (q ⟨0, by decide⟩).val :=
  dot_S10000x256_S256x1_S10000x1_1_0_0_1_n_n.rhsIdx_val_of_single rfl i q
/-- On the column axis it is the output's column. -/
theorem rhs_dot_1 (i : S10000x1.Idx) (q : dot_S10000x256_S256x1_S10000x1_1_0_0_1_n_n.contr.Idx) :
    (dot_S10000x256_S256x1_S10000x1_1_0_0_1_n_n.rhsIdx i q 1).val = (i 1).val := by
  unfold DotDims.rhsIdx
  rw [dif_neg (show ¬(1 : Fin S256x1.rank) ∈ dot_S10000x256_S256x1_S10000x1_1_0_0_1_n_n.rhsBatch by decide), dif_pos (show (1 : Fin S256x1.rank) ∈ dot_S10000x256_S256x1_S10000x1_1_0_0_1_n_n.rhsNonContracting by decide)]
  rfl

/-- The matrix product into the zero accumulator, at an index of the block: the sum over the 256 feature columns. -/
theorem matmul_blk_apply (x0 : Vec Ideal S10000x256 .f32) (x1 : Vec Ideal S256x1 .f32) (j : S10000x1.Idx) :
    matmul (F := Ideal) (φ₁ := .f32) (φ₂ := .f32) dot_S10000x256_S256x1_S10000x1_1_0_0_1_n_n none x0 x1 (constant (F := Ideal) S10000x1 .f32 0x00000000#32) j
      = ∑ k : Fin 256, x0 (featBlk j k) * x1 (wgtBlk j k) := by
  simp only [matmul]
  rw [Ideal.matmul_constant_zero_apply, ← Equiv.sum_comp (ValueIdx.contrEquiv1 dot_S10000x256_S256x1_S10000x1_1_0_0_1_n_n 256 rfl rfl).symm]
  refine Finset.sum_congr rfl fun k _ => ?_
  have hk := ValueIdx.contrEquiv1_symm_val dot_S10000x256_S256x1_S10000x1_1_0_0_1_n_n 256 rfl rfl k
  have el : dot_S10000x256_S256x1_S10000x1_1_0_0_1_n_n.lhsIdx j ((ValueIdx.contrEquiv1 dot_S10000x256_S256x1_S10000x1_1_0_0_1_n_n 256 rfl rfl).symm k) = featBlk j k := funext fun a => Fin.ext (by
    match a with
    | ⟨0, _⟩ => exact lhs_dot_0 _ _
    | ⟨1, _⟩ => exact (lhs_dot_1 _ _).trans hk)
  have er : dot_S10000x256_S256x1_S10000x1_1_0_0_1_n_n.rhsIdx j ((ValueIdx.contrEquiv1 dot_S10000x256_S256x1_S10000x1_1_0_0_1_n_n 256 rfl rfl).symm k) = wgtBlk j k := funext fun a => Fin.ext (by
    match a with
    | ⟨0, _⟩ => exact (rhs_dot_0 _ _).trans hk
    | ⟨1, _⟩ => exact rhs_dot_1 _ _)
  rw [el, er]

/-- The body's stored value at an index of the block: the factor's entry times the product's. -/
theorem pay_apply (x0 : Vec Ideal S10000x256 .f32) (x1 : Vec Ideal S256x1 .f32) (x2 : Vec Ideal S10000x1 .f32) (j : S10000x1.Idx) :
    k0_pay1 x0 x1 x2 j = x2 j * ∑ k : Fin 256, x0 (featBlk j k) * x1 (wgtBlk j k) := by
  unfold k0_pay1
  rw [ValueIdx.mulf_apply, shapeCast_self, matmul_blk_apply]

/-- The same as a whole block: the stored block is that function of the three loaded blocks. -/
theorem pay_fn (x0 : Vec Ideal S10000x256 .f32) (x1 : Vec Ideal S256x1 .f32) (x2 : Vec Ideal S10000x1 .f32) :
    k0_pay1 x0 x1 x2 = fun j => x2 j * ∑ k : Fin 256, x0 (featBlk j k) * x1 (wgtBlk j k) :=
  funext (pay_apply x0 x1 x2)

end Cert.KernelIdeal.KValue

end
-- ==== Proof.KernelBlocks.lean ====
/-
  From the blocks the kernel region writes to the array it leaves.
  Block `t` of every window that moves holds rows `10000·t … 10000·t + 9999` of its array, and the weight column's one block
  is the whole column at every point; so what point `t` writes back is block `t` of the scaled projection of the three arrays
  (KernelValue), and the ten blocks tile the output's 100000 rows: the output array ends holding the scaled projection.
-/
import proofs.«427858_j85693187489968_3_alg».proof.Proof.KernelValue

-- a rectangle's membership at these extents: the elaborator's structural look recurses once per coordinate
set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## From the blocks to the array -/

variable (m : (ℓ : Loc nD τ sig) → Buf (Elt Ideal) ℓ)

theorem zero_offsets : (![0, 0] : Fin 2 → Nat) = fun _ => 0 := funext fun a => by fin_cases a <;> rfl

/-- The printed index maps over the ten grid points: the feature block and the factor block move with the output block
    along the rows, the weight column's block never moves, and no window moves along the columns. -/
theorem block_indices : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 9 :=
  (by decide +kernel : ∀ t : Fin grid0.N, _)

/-- Each of the ten row blocks of the output is some grid point's. -/
theorem block_onto : ∀ q : Fin 10, ∃ t : Fin cfg0.N, win0_3.index t = ![q.val, 0] :=
  (by decide +kernel : ∀ q : Fin 10, ∃ t : Fin grid0.N, win0_3.index t = ![q.val, 0])

/-- Block `t` of the stored value, for ANY contents `A0`, `A1`, `A2` of the three arrays the region reads: the body's
    result on the three blocks at `t` is block `t` of the scaled projection of the arrays. -/
theorem block_value (t : Fin cfg0.N) (A0 : S100000x256.Idx → EReal) (A1 : S256x1.Idx → EReal) (A2 : S100000x1.Idx → EReal) :
    (cfg0.win 3).cut (grid0.coords t)
        (k0_pay1 (((cfg0.win 0).blk t).view.read (Elt Ideal) A0) (((cfg0.win 1).blk t).view.read (Elt Ideal) A1)
          (((cfg0.win 2).blk t).view.read (Elt Ideal) A2))
      = ((cfg0.win 3).blk t).view.read (Elt Ideal) (scaledProj A0 A1 A2) := by
  rw [pay_fn]
  obtain ⟨e0, e1, e2, e3, e4, e5, e6, e7⟩ := block_indices t
  funext j
  show A2 (((cfg0.win 2).blk t).view.emb j)
      * ∑ k : Fin 256, A0 (((cfg0.win 0).blk t).view.emb (featBlk j k)) * A1 (((cfg0.win 1).blk t).view.emb (wgtBlk j k))
    = A2 (((cfg0.win 3).blk t).view.emb j)
      * ∑ k : Fin 256, A0 (featIdx (((cfg0.win 3).blk t).view.emb j) k) * A1 (wgtIdx (((cfg0.win 3).blk t).view.emb j) k)
  -- a block's element sits in its array at block index × block extent + its own coordinate, axis by axis
  have h2 : ((cfg0.win 2).blk t).view.emb j = ((cfg0.win 3).blk t).view.emb j := by
    funext a; apply Fin.ext
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * (j 1).val = win0_3.index t (1 : Fin 2) * 1 + 1 * (j 1).val; omega
  have h0 : ∀ k : Fin 256, ((cfg0.win 0).blk t).view.emb (featBlk j k) = featIdx (((cfg0.win 3).blk t).view.emb j) k := by
    intro k; funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 256 + 1 * k.val = k.val; omega
  have h1 : ∀ k : Fin 256, ((cfg0.win 1).blk t).view.emb (wgtBlk j k) = wgtIdx (((cfg0.win 3).blk t).view.emb j) k := by
    intro k; funext a; apply Fin.ext
    match a with
    | ⟨0, _⟩ => show win0_1.index t (0 : Fin 2) * 256 + 1 * k.val = k.val; omega
    | ⟨1, _⟩ => show win0_1.index t (1 : Fin 2) * 1 + 1 * (j 1).val = win0_3.index t (1 : Fin 2) * 1 + 1 * (j 1).val; omega
  rw [h2]
  refine congrArg (A2 (((cfg0.win 3).blk t).view.emb j) * ·) (Finset.sum_congr rfl fun k _ => ?_)
  rw [h0 k, h1 k]

/-- What grid point `t` writes back is block `t` of the scaled projection of the arrays as the region finds them. -/
theorem flushed_eq (c : Dev nD) (t : Fin cfg0.N) :
    (dats m 0 c).flushed 3 t
      = ((cfg0.win 3).blk t).view.read (Elt Ideal)
          (scaledProj (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3 iblk
  rw [View.canon_unit_zero zero_offsets]
  simp only [View.ld_unit_zero (S := S10000x256) zero_offsets, View.ld_unit_zero (S := S256x1) zero_offsets,
    View.ld_unit_zero (S := S10000x1) zero_offsets]
  exact block_value t _ _ _

/-- An index of the output array is in point `t`'s block iff each coordinate is in the block's range on its axis. -/
theorem mem_blk (t : Fin cfg0.N) (i : S100000x1.Idx) :
    i ∈ ((cfg0.win 3).blk t).view.set ↔ ∀ a : Fin 2, win0_3.index t a * S10000x1.size a ≤ (i a).val ∧ (i a).val < win0_3.index t a * S10000x1.size a + S10000x1.size a := by
  show i ∈ ((View.whole main_v17).slice (win0_3.rect t)).set ↔ _
  rw [View.set_slice_whole, Rect.mem_set_unit]
  exact Iff.rfl

/-- Every row of the output lies in the block of the point that handles its ten-thousand. -/
theorem covered (i : S100000x1.Idx) :
    ∃ t : Fin cfg0.N, (cfg0.win 3).flush t = true ∧ i ∈ ((cfg0.win 3).blk t).view.set := by
  have hi0 : (i 0).val < 100000 := (i 0).isLt
  have hi1 : (i 1).val < 1 := (i 1).isLt
  obtain ⟨t, ht⟩ := block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 1 ≤ (i 1).val ∧ (i 1).val < win0_3.index t (1 : Fin 2) * 1 + 1; omega

/-- The output array after the region: the scaled projection of the arrays as the region finds them. -/
theorem final_scaled (c : Dev nD) :
    (dats m 0 c).arrAt 3 cfg0.N
      = scaledProj (V m c (Pipeline.arrRef spec0 0)) (V m c (Pipeline.arrRef spec0 1)) (V m c (Pipeline.arrRef spec0 2)) :=
  (dats m 0 c).arrAt_eq_of_cover 3 _ (fun t _ => flushed_eq m c t) covered

end Cert.KernelIdeal.KValue

end
-- ==== Proof.KernelTail.lean ====
/-
  The host operations around the kernel region, as functions of the arrays.
  Before the region the program builds, from the edge list alone, the source and target node of every edge with the
  self loops appended (`rowOf`, `colOf`), the in-degrees by a scatter of ones, and the node factors
  `where(deg > 0, rsqrt deg, 0)` (`dinvOf`), reshaped to a column. After the region it wraps the negative source
  nodes, gathers the scaled projection's rows at the sources, scatter-adds them at the targets, scales each node's sum
  with its factor and adds the bias (`tailOf`). Each of these is the composition of the printed operations, read back
  off the fold of the operation lists.
-/
import proofs.«427858_j85693187489968_3_alg».proof.Proof.Gen.KernelIdeal.Frame
import Idealize.ShloMosaic.Lib.StableHlo.Run

noncomputable section

namespace Cert.KernelIdeal.KTail

open Cert.KernelIdeal Cert.KernelIdeal.Gen Idealize.ShloMosaic Idealize.ShloMosaic.TcCoe Idealize.SL.Sem
open Idealize.ShloMosaic.StableHlo

variable {F : FTy → Type} [FloatOps F]

/-- The source node of every edge, the self loops appended: row 0 of the edge list, then `0 … 99999`. -/
def rowOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target node of every edge, the self loops appended: row 1 of the edge list, then `0 … 99999`. -/
def colOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- The in-degree of every node: a scatter-add of ones at the targets into zeros. -/
def degOf (col : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 col) (broadcastInDim S3300000 ![] bcast_S_S3300000 (constant S_ .f32 0x3F800000#32))

/-- The node factors: `rsqrt` of the degree where it is positive, zero elsewhere. -/
def dinvOf (col : (⟨S3300000, .i32⟩ : BufTy).Contents (Elt F)) : (⟨S100000, .f32⟩ : BufTy).Contents (Elt F) :=
  select (cmpf (F := F) .ogt (degOf col) (broadcastInDim S100000 ![] bcast_S_S100000 (constant S_ .f32 0x00000000#32))) (Host.rsqrt (degOf col)) (broadcastInDim S100000 ![] bcast_S_S100000 (constant S_ .f32 0x00000000#32))

/-- The node factors as a column. -/
def dinvColOf (col : (⟨S3300000, .i32⟩ : BufTy).Contents (Elt F)) : (⟨S100000x1, .f32⟩ : BufTy).Contents (Elt F) :=
  shapeCast _ (dinvOf col) shapeCasts_S100000_S100000x1

/-- A negative node index wrapped by the node count: `i + 100000` where `i < 0`, else `i`. -/
def wrapOf (ix : (⟨S3300000, .i32⟩ : BufTy).Contents (Elt F)) : (⟨S3300000, .i32⟩ : BufTy).Contents (Elt F) :=
  select (cmpi .slt ix (broadcastInDim S3300000 ![] bcast_S_S3300000 (constantI S_ 32 0#32))) (addi ix (broadcastInDim S3300000 ![] bcast_S_S3300000 (constantI S_ 32 100000#32))) ix

/-- The operations after the region: gather the rows of `s` at the wrapped sources, scatter-add them at the targets into
    zeros, scale with the factor column, add the bias. -/
def tailOf (row col : (⟨S3300000, .i32⟩ : BufTy).Contents (Elt F)) (dcol s : (⟨S100000x1, .f32⟩ : BufTy).Contents (Elt F))
    (b : (⟨S1, .f32⟩ : BufTy).Contents (Elt F)) : (⟨S100000x1, .f32⟩ : BufTy).Contents (Elt F) :=
  addf (mulf dcol (Host.scatterAdd scatter_S100000x1_S3300000x1_S3300000x1_1_0_0_1 (broadcastInDim S100000x1 ![] bcast_S_S100000x1 (constant S_ .f32 0x00000000#32)) (broadcastInDim S3300000x1 ![0] bcast_S3300000_S3300000x1_0 col) (Host.gather gather_S100000x1_S3300000x1_S3300000x1_1_0_n_n_0_1_11 s (broadcastInDim S3300000x1 ![0] bcast_S3300000_S3300000x1_0 (wrapOf row))))) (broadcastInDim S100000x1 ![0, 1] bcast_S1x1_S100000x1_0_1 (broadcastInDim S1x1 ![1] bcast_S1_S1x1_1 b))

set_option maxRecDepth 8192 in
set_option maxHeartbeats 2000000 in
/-- The result buffer after the operations that follow the region, from ANY contents `Vl` of the buffers they read. -/
theorem tail_after (Vl : Valuation τ sig (Elt F)) :
    StableHlo.after hostOps1 Vl (Proc.devRef .tc main_v31)
      = tailOf (Vl (Proc.devRef .tc main_v3)) (Vl (Proc.devRef .tc main_v6)) (Vl (Proc.devRef .tc main_v16))
          (Vl (Proc.devRef .tc main_v17)) (Vl (Proc.devRef .tc main_arg3)) := by
  after_results_simp <;> rfl

/-! ## The arrays the region and the later operations find -/

variable (m : (ℓ : Loc nD τ sig) → Buf (Elt F) ℓ)

set_option maxRecDepth 8192 in
set_option maxHeartbeats 2000000 in
/-- The sources, as the operations before the region leave them. -/
theorem V_row (c : Dev nD) : V m c main_v3 = rowOf (m ((c : Thread nD τ).loc main_arg1)) := by
  dsimp only [V, V0]
  simp only [hostOps0, hostOps0_1, hostOps0_2, List.flatten_cons, List.flatten_nil, List.append_nil, List.cons_append,
    List.nil_append]
  after_results_simp <;> rfl

set_option maxRecDepth 8192 in
set_option maxHeartbeats 2000000 in
/-- The targets, as the operations before the region leave them. -/
theorem V_col (c : Dev nD) : V m c main_v6 = colOf (m ((c : Thread nD τ).loc main_arg1)) := by
  dsimp only [V, V0]
  simp only [hostOps0, hostOps0_1, hostOps0_2, List.flatten_cons, List.flatten_nil, List.append_nil, List.cons_append,
    List.nil_append]
  after_results_simp <;> rfl

set_option maxRecDepth 8192 in
set_option maxHeartbeats 2000000 in
/-- The column of node factors, as the operations before the region leave it. -/
theorem V_dcol (c : Dev nD) : V m c main_v16 = dinvColOf (colOf (m ((c : Thread nD τ).loc main_arg1))) := by
  dsimp only [V, V0]
  simp only [hostOps0, hostOps0_1, hostOps0_2, List.flatten_cons, List.flatten_nil, List.append_nil, List.cons_append,
    List.nil_append]
  after_results_simp <;> (try simp only [TRef.ofBuf, TRef.toBuf, cast_eq]) <;> rfl

end Cert.KernelIdeal.KTail

end
-- ==== Proof.KernelRun.lean ====
/-
  The kernel program's run, read: its result as one function of the four arrays.
  The generated frame run leaves the region's output array at the blocks the body wrote (KernelBlocks: the scaled
  projection) and every other buffer at what the operations after the region compute from the buffers they read
  (KernelTail); the buffers those read are the sources, the targets and the factor column the operations before the region
  left, the region's output, and the bias argument.
-/
import proofs.«427858_j85693187489968_3_alg».proof.Proof.KernelBlocks
import proofs.«427858_j85693187489968_3_alg».proof.Proof.KernelTail

noncomputable section

namespace Cert.KernelIdeal.KRun

open Cert.KernelIdeal Cert.KernelIdeal.Gen Idealize.ShloMosaic Idealize.ShloMosaic.TcCoe Idealize.SL.Sem
open Idealize.ShloMosaic.Pipeline (Dat)
open Cert.KernelIdeal.KTail Cert.KernelIdeal.KValue

/-- The kernel program's result as one function of the four arrays: the operations after the region applied to the
    sources, the targets, the factor column and the scaled projection the edge list, the features and the weights give. -/
def kernelOut (x : S100000x256.Idx → EReal) (e : S2x3200000.Idx → BitVec 32) (w : S256x1.Idx → EReal) (b : S1.Idx → EReal) :
    S100000x1.Idx → EReal :=
  tailOf (F := Ideal) (rowOf (F := Ideal) e) (colOf (F := Ideal) e) (dinvColOf (F := Ideal) (colOf (F := Ideal) e))
    (scaledProj x w (dinvColOf (F := Ideal) (colOf (F := Ideal) e))) b

variable (m : (ℓ : Loc nD τ sig) → Buf (Elt Ideal) ℓ) (ρ : Dev nD → PrngReg)

/-- The region's output array after the run, over the arrays named by their buffers. -/
theorem final_named (c : Dev nD) :
    (dats m 0 c).arrAt 3 cfg0.N = scaledProj (V m c main_arg0) (V m c main_arg2) (V m c main_v16) :=
  final_scaled m c

/-- What the result buffer holds after the operations that follow the region. -/
theorem result_eq (c : Dev nD) :
    Pipeline.afterTail₀ cfgs (dats m) 0 (V0 m) [hostOps1] c main_v31
      = kernelOut (m ((c : Thread nD τ).loc main_arg0)) (m ((c : Thread nD τ).loc main_arg1))
          (m ((c : Thread nD τ).loc main_arg2)) (m ((c : Thread nD τ).loc main_arg3)) := by
  unfold Pipeline.afterTail₀
  simp only [List.flatten_cons, List.flatten_nil, List.append_nil]
  rw [tail_after]
  -- the buffers the later operations read: three that no window stages, the staged factor column, the region's output
  have e3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  have e6 : Pipeline.withArrays (cfgs 0).spec c (V0 m c) (fun w => (dats m 0 c).arrAt w (cfgs 0).N) (Proc.devRef .tc main_v6)
      = V m c main_v6 :=
    Pipeline.withArrays_of_ne _ c (V0 m c) _ main_v6 (by exact (by decide : ∀ w, Pipeline.arrRef spec0 w ≠ main_v6))
  have ea3 : Pipeline.withArrays (cfgs 0).spec c (V0 m c) (fun w => (dats m 0 c).arrAt w (cfgs 0).N) (Proc.devRef .tc main_arg3)
      = V m c main_arg3 :=
    Pipeline.withArrays_of_ne _ c (V0 m c) _ main_arg3 (by exact (by decide : ∀ w, Pipeline.arrRef spec0 w ≠ main_arg3))
  have e16 : Pipeline.withArrays (cfgs 0).spec c (V0 m c) (fun w => (dats m 0 c).arrAt w (cfgs 0).N) (Proc.devRef .tc main_v16)
      = V m c main_v16 :=
    (Pipeline.withArrays_arr spec0 launch0.win.arr_inj c _ _ 2).trans
      (((dats m 0 c).arrAt_in 2 rfl _).trans (A_eq m c 2))
  have e17 : Pipeline.withArrays (cfgs 0).spec c (V0 m c) (fun w => (dats m 0 c).arrAt w (cfgs 0).N) (Proc.devRef .tc main_v17)
      = scaledProj (V m c main_arg0) (V m c main_arg2) (V m c main_v16) :=
    (Pipeline.withArrays_arr spec0 launch0.win.arr_inj c _ _ 3).trans (final_named m c)
  rw [e3, e6, e16, e17, ea3, V_row m c, V_col m c, V_dcol m c, V_main_arg0 m c, V_main_arg2 m c, V_main_arg3 m c]
  rfl

/-- THE KERNEL PROGRAM'S RUN: every weakly fair execution terminates with the result at `kernelOut` of the arguments and
    the arguments unchanged. -/
theorem run : θ_run defs (onTc (τ := τ) (main (F := Ideal))) ⟨m, fun _ => 0, ρ⟩ fun r => ∀ c : Dev nD,
      r.2.mem ((c.tc : Thread nD τ).loc main_v31)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v31 (Pipeline.mem_restRefs_of main_v31 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KRun

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.LibVecGather.lean ====
/-
  Reading a gather of scalars, and two small broadcasts, at an index.
  `x[idx]` of a flat array `x : [N]` at an index column `idx : [T, 1]` lowers to a gather whose result element `t` is the
  operand at the start index `idx[t, 0]`, read signed and clamped into `[0, N − 1]` (a negative index reads entry `0`,
  an index past the end reads the last entry). A vector broadcast to a one-column matrix along axis 0 reads, at `(t, z)`,
  the vector at `t`. A one-element vector broadcast to `[1, 1]` and on to `[N, 1]` reads its one element everywhere.
-/
import Idealize.ShloMosaic.PureOps.Ideal
import Idealize.ShloMosaic.Lib.ValueIdx
import Idealize.ShloMosaic.Lib.Pipeline.Value

noncomputable section

namespace Cert.LibVecGather

open Idealize.ShloMosaic Idealize.ShloMosaic.ValueIdx

/-- The dimension numbers of a gather of scalars: operand `[N]`, indices `[T, 1]`, result `[T]`; result element `t` is the
    operand's entry at the start index `idx[t, 0]` (slice size `[1]`, the one operand axis collapsed). -/
abbrev vecGatherDims (N T : Nat)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- Result position `t` reads its start index at `(t, 0)`: the result's one axis is a batch axis and supplies the indices'
    axis 0; the index vector (axis 1, of extent 1) has only the component `0`. -/
theorem vecGather_siIdx {N T : Nat} (wf : GatherDims.WF ⟨1, ![N]⟩ ⟨2, ![T, 1]⟩ ⟨1, ![T]⟩ [] [0] [] [0] [] 1 ![1])
    (t : Fin T) (c : Fin (vecGatherDims N T wf).startIndexMap.length) :
    (vecGatherDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- THE GATHER OF SCALARS READ AT `t`: the operand at the start index `idx[t, 0]`, read signed and clamped into `[0, N − 1]`. -/
theorem vecGather_apply {α : Type} {N T w : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (t : Fin T) :
    Host.gather (vecGatherDims N T wf) x idx (ix1 t)
      = x (ix1 (⟨min (idx (ix2 t (0 : Fin 1))).toInt.toNat (N - 1), by omega⟩ : Fin N)) := by
  unfold Host.gather
  congr 1
  funext a
  obtain rfl : a = 0 := Subsingleton.elim _ _
  refine Fin.ext ?_
  -- the operand's one coordinate is slice start + batching coordinate + offset; the last two are 0
  show (vecGatherDims N T wf).start (ix1 t) idx 0 + (vecGatherDims N T wf).batchCoord (ix1 t) 0
      + (vecGatherDims N T wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl),
    vecGather_siIdx]
  rfl

/-- A vector of `T ≠ 1` entries broadcast along axis 0 to a `[T, 1]` column reads, at `(t, z)`, its entry `t`. -/
theorem column_apply {α : Type} {T : Nat} (hT : T ≠ 1)
    (h : (⟨1, ![T]⟩ : Shape).BroadcastsInDim ⟨2, ![T, 1]⟩ (![0] : Fin 1 → Fin 2))
    (v : (⟨1, ![T]⟩ : Shape).Idx → α) (t : Fin T) (z : Fin 1) :
    broadcastInDim ⟨2, ![T, 1]⟩ ![0] h v (ix2 t z) = v (ix1 t) :=
  broadcastInDim_apply _ h v (ix2 t z) (ix1 t) (fun a => match a with
    | ⟨0, _⟩ => by show t.val = if T = 1 then 0 else t.val; rw [if_neg hT])

/-- A one-element vector broadcast to `[1, 1]` (as the column axis) and then to `[N, 1]` reads its element everywhere. -/
theorem bias_apply {α : Type} {N : Nat}
    (h1 : (⟨1, ![1]⟩ : Shape).BroadcastsInDim ⟨2, ![1, 1]⟩ (![1] : Fin 1 → Fin 2))
    (h2 : (⟨2, ![1, 1]⟩ : Shape).BroadcastsInDim ⟨2, ![N, 1]⟩ (![0, 1] : Fin 2 → Fin 2))
    (b : (⟨1, ![1]⟩ : Shape).Idx → α) (i : (⟨2, ![N, 1]⟩ : Shape).Idx) :
    broadcastInDim ⟨2, ![N, 1]⟩ ![0, 1] h2 (broadcastInDim ⟨2, ![1, 1]⟩ ![1] h1 b) i = b (ix1 (0 : Fin 1)) := by
  rw [broadcastInDim_apply _ h2 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ h1 b _ (ix1 (0 : Fin 1)) (fun a => match a with
    | ⟨0, _⟩ => by show 0 = if (1 : Nat) = 1 then 0 else ((ix2 (0 : Fin 1) (0 : Fin 1)) 1).val; rw [if_pos rfl])

end Cert.LibVecGather

end
-- ==== Proof.NodeIndex.lean ====
/-
  Node index words.
  The programs index the 100000 nodes by 32-bit words read SIGNED. Before a gather a negative word is wrapped by the node
  count (`w + 100000` where `w < 0`), and the gather then clamps what it reads into `[0, 99999]`; a scatter neither wraps nor
  clamps: an update whose word is not a node is dropped. So a word that a scatter accepts for node `n` (its signed value IS
  `n`) is not negative, the wrap leaves it alone, and the clamp reads node `n`.
-/
import Idealize.ShloMosaic.PureOps.Ideal
import Idealize.ShloMosaic.Lib.ValueIdx

noncomputable section

namespace Cert.NodeIndex

open Idealize.ShloMosaic

/-- A negative word wrapped by the node count. -/
def wrapWord (w : BitVec 32) : BitVec 32 := Scalar.select (IntOp.cmpi .slt w 0#32) (IntOp.addi w 100000#32) w

/-- The node a gather reads at a start word: the word's signed value clamped into `[0, 99999]`. -/
def nodeOf (w : BitVec 32) : Fin 100000 := ⟨min w.toInt.toNat (100000 - 1), by omega⟩

/-- The wrap leaves a nonnegative word alone. -/
theorem wrapWord_of_nonneg (w : BitVec 32) (h : 0 ≤ w.toInt) : wrapWord w = w := by
  unfold wrapWord
  have h0 : (0#32 : BitVec 32).toInt = 0 := by decide
  have hc : IntOp.cmpi .slt w 0#32 = 0#1 := by
    unfold IntOp.cmpi
    have : ¬ (w.toInt < 0) := by omega
    simp only [BitVec.slt, h0, this, decide_false, BitVec.ofBool_false]
    rfl
  rw [hc, ValueIdx.select_zero]

/-- A word whose signed value is the node `n` reads node `n`, wrapped or not. -/
theorem nodeOf_wrapWord_of_eq (w : BitVec 32) (n : Fin 100000) (h : w.toInt = (n.val : Int)) :
    nodeOf (wrapWord w) = n := by
  rw [wrapWord_of_nonneg w (by omega)]
  apply Fin.ext
  show min w.toInt.toNat (100000 - 1) = n.val
  have := n.isLt
  omega

end Cert.NodeIndex

end
-- ==== Proof.KernelPoint.lean ====
/-
  The kernel program's result at a node.
  With the region's output `s` (the scaled projection) in hand, the operations after the region give node `n` the value
      dinv[n] · (0 + Σ_{t : col[t] = n} s[src t]) + b,
  the sum over the edges `t` whose target word, read signed, is `n` (the scatter drops every other update), `src t` the
  node the gather reads at edge `t`'s wrapped source word.
-/
import proofs.«427858_j85693187489968_3_alg».proof.Proof.KernelTail
import proofs.«427858_j85693187489968_3_alg».proof.Proof.LibIndex
import proofs.«427858_j85693187489968_3_alg».proof.Proof.LibVecGather
import proofs.«427858_j85693187489968_3_alg».proof.Proof.NodeIndex
import Idealize.ShloMosaic.PureOps.Ideal.Laws

noncomputable section

namespace Cert.KernelIdeal.KTail

open Cert.KernelIdeal Cert.KernelIdeal.Gen Idealize.ShloMosaic Idealize.ShloMosaic.ValueIdx
open Cert.NodeIndex

/-- The accumulating row scatter of the program, read at node `n`: the operand's entry plus the updates of the edges whose
    target word is `n`. -/
theorem scatter_rows_apply (X : S100000x1.Idx → EReal) (I : IVec S3300000x1 32) (U : S3300000x1.Idx → EReal) (n : Fin 100000) :
    Host.scatterAdd (F := Ideal) (φ := .f32) scatter_S100000x1_S3300000x1_S3300000x1_1_0_0_1 X I U (ix2 n (0 : Fin 1))
      = X (ix2 n (0 : Fin 1))
        + ∑ t ∈ Finset.univ.filter (fun t : Fin 3300000 => (I (ix2 t (0 : Fin 1))).toInt = (n.val : Int)), U (ix2 t (0 : Fin 1)) :=
  Cert.LibIndex.rowScatterAdd_apply scatter_S100000x1_S3300000x1_S3300000x1_1_0_0_1_wf X I U n 0

/-- The row gather of the program, read at edge `t`: the operand's row at the node the start word reads. -/
theorem gather_rows_apply (X : S100000x1.Idx → EReal) (I : IVec S3300000x1 32) (t : Fin 3300000) :
    Host.gather gather_S100000x1_S3300000x1_S3300000x1_1_0_n_n_0_1_11 X I (ix2 t (0 : Fin 1))
      = X (ix2 (nodeOf (I (ix2 t (0 : Fin 1)))) (0 : Fin 1)) :=
  Cert.LibIndex.rowGather_apply (by decide) gather_S100000x1_S3300000x1_S3300000x1_1_0_n_n_0_1_11_wf X I t 0

/-- An index vector as a column, read at `(t, 0)`. -/
theorem column_apply {α : Type} (v : S3300000.Idx → α) (t : Fin 3300000) :
    broadcastInDim S3300000x1 ![0] bcast_S3300000_S3300000x1_0 v (ix2 t (0 : Fin 1)) = v (ix1 t) :=
  Cert.LibVecGather.column_apply (by decide) bcast_S3300000_S3300000x1_0 v t 0

/-- The wrap of an index vector, entry by entry. -/
theorem wrapOf_apply (ix : S3300000.Idx → BitVec 32) (i : S3300000.Idx) :
    wrapOf (F := Ideal) ix i = wrapWord (ix i) := rfl

/-- THE KERNEL PROGRAM'S RESULT AT NODE `n`. -/
theorem tail_point (row col : S3300000.Idx → BitVec 32) (dcol s : S100000x1.Idx → EReal) (b : S1.Idx → EReal)
    (n : Fin 100000) :
    tailOf (F := Ideal) row col dcol s b (ix2 n (0 : Fin 1))
      = dcol (ix2 n (0 : Fin 1))
          * (Ideal.ofBits .f32 0x00000000#32
              + ∑ t ∈ Finset.univ.filter (fun t : Fin 3300000 => (col (ix1 t)).toInt = (n.val : Int)),
                  s (ix2 (nodeOf (wrapWord (row (ix1 t)))) (0 : Fin 1)))
        + b (ix1 (0 : Fin 1)) := by
  unfold tailOf
  rw [ValueIdx.addf_apply, ValueIdx.mulf_apply, Cert.LibVecGather.bias_apply, scatter_rows_apply]
  refine congrArg (· + b (ix1 (0 : Fin 1))) (congrArg (dcol (ix2 n (0 : Fin 1)) * ·) ?_)
  refine congrArg₂ (· + ·) rfl ?_
  refine Finset.sum_congr (Finset.filter_congr fun t _ => ?_) fun t _ => ?_
  · rw [column_apply]
  · rw [gather_rows_apply, column_apply, wrapOf_apply]

end Cert.KernelIdeal.KTail

end
-- ==== Proof.RefPoint.lean ====
/-
  The reference program's result at a node.
  The reference gathers each edge's two node factors (at its wrapped source and at its wrapped target), multiplies them
  into the edge's norm, gathers the projected features `x·W` at the wrapped source, and scatter-adds norm × feature at the
  target; then the bias. So node `n` gets
      (0 + Σ_{t : col[t] = n} (dinv[src t] · dinv[tgt t]) · (x·W)[src t]) + b,
  the sum over the edges whose target word, read signed, is `n`.
-/
import proofs.«427858_j85693187489968_3_alg».proof.Proof.RefRead
import proofs.«427858_j85693187489968_3_alg».proof.Proof.LibIndex
import proofs.«427858_j85693187489968_3_alg».proof.Proof.LibVecGather
import proofs.«427858_j85693187489968_3_alg».proof.Proof.NodeIndex
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.NodeIndex

/-- The accumulating row scatter of the program, read at node `n`. -/
theorem scatter_rows_apply (X : S100000x1.Idx → EReal) (I : IVec S3300000x1 32) (U : S3300000x1.Idx → EReal) (n : Fin 100000) :
    Host.scatterAdd (F := Ideal) (φ := .f32) scatter_S100000x1_S3300000x1_S3300000x1_1_0_0_1 X I U (ix2 n (0 : Fin 1))
      = X (ix2 n (0 : Fin 1))
        + ∑ t ∈ Finset.univ.filter (fun t : Fin 3300000 => (I (ix2 t (0 : Fin 1))).toInt = (n.val : Int)), U (ix2 t (0 : Fin 1)) :=
  Cert.LibIndex.rowScatterAdd_apply scatter_S100000x1_S3300000x1_S3300000x1_1_0_0_1_wf X I U n 0

/-- The row gather of the program, read at edge `t`. -/
theorem gather_rows_apply {α : Type} (X : S100000x1.Idx → α) (I : IVec S3300000x1 32) (t : Fin 3300000) :
    Host.gather gather_S100000x1_S3300000x1_S3300000x1_1_0_n_n_0_1_11 X I (ix2 t (0 : Fin 1))
      = X (ix2 (nodeOf (I (ix2 t (0 : Fin 1)))) (0 : Fin 1)) :=
  Cert.LibIndex.rowGather_apply (by decide) gather_S100000x1_S3300000x1_S3300000x1_1_0_n_n_0_1_11_wf X I t 0

/-- The gather of scalars of the program, read at edge `t`. -/
theorem gather_vec_apply {α : Type} (X : S100000.Idx → α) (I : IVec S3300000x1 32) (t : Fin 3300000) :
    Host.gather gather_S100000_S3300000x1_S3300000_n_0_n_n_0_1_1 X I (ix1 t)
      = X (ix1 (nodeOf (I (ix2 t (0 : Fin 1))))) :=
  Cert.LibVecGather.vecGather_apply (by decide) gather_S100000_S3300000x1_S3300000_n_0_n_n_0_1_1_wf X I t

/-- A vector as a column, read at `(t, 0)`. -/
theorem column_apply {α : Type} (v : S3300000.Idx → α) (t : Fin 3300000) :
    broadcastInDim S3300000x1 ![0] bcast_S3300000_S3300000x1_0 v (ix2 t (0 : Fin 1)) = v (ix1 t) :=
  Cert.LibVecGather.column_apply (by decide) bcast_S3300000_S3300000x1_0 v t 0

variable (x0 : S100000x256.Idx → EReal) (x1 : S2x3200000.Idx → BitVec 32) (x2 : S256x1.Idx → EReal) (x3 : S1.Idx → EReal)

/-- The three wrapped index vectors, entry by entry: the sources (computed twice) and the targets. -/
theorem wrapped_src (i : S3300000.Idx) : val_main_v20 (F := Ideal) x1 i = wrapWord (val_main_v3 (F := Ideal) x1 i) := rfl
theorem wrapped_tgt (i : S3300000.Idx) : val_main_v27 (F := Ideal) x1 i = wrapWord (val_main_v6 (F := Ideal) x1 i) := rfl
theorem wrapped_src' (i : S3300000.Idx) : val_main_v37 (F := Ideal) x1 i = wrapWord (val_main_v3 (F := Ideal) x1 i) := rfl

/-- The node edge `t` reads as its source, and the one it reads as its target. -/
abbrev srcNode (t : Fin 3300000) : Fin 100000 := nodeOf (wrapWord (val_main_v3 (F := Ideal) x1 (ix1 t)))
abbrev tgtNode (t : Fin 3300000) : Fin 100000 := nodeOf (wrapWord (val_main_v6 (F := Ideal) x1 (ix1 t)))

/-- The source's factor at edge `t`. -/
theorem src_factor (t : Fin 3300000) :
    val_main_v22 (F := Ideal) x1 (ix1 t) = val_main_v15 (F := Ideal) x1 (ix1 (srcNode x1 t)) := by
  unfold val_main_v22
  rw [gather_vec_apply]
  unfold val_main_v21
  rw [column_apply, wrapped_src]

/-- The target's factor at edge `t`. -/
theorem tgt_factor (t : Fin 3300000) :
    val_main_v29 (F := Ideal) x1 (ix1 t) = val_main_v15 (F := Ideal) x1 (ix1 (tgtNode x1 t)) := by
  unfold val_main_v29
  rw [gather_vec_apply]
  unfold val_main_v28
  rw [column_apply, wrapped_tgt]

/-- The projected feature of the source at edge `t`. -/
theorem src_feature (t : Fin 3300000) :
    val_main_v39 (F := Ideal) x0 x1 x2 (ix2 t (0 : Fin 1))
      = val_main_v31 (F := Ideal) x0 x2 (ix2 (srcNode x1 t) (0 : Fin 1)) := by
  unfold val_main_v39
  rw [gather_rows_apply]
  unfold val_main_v38
  rw [column_apply, wrapped_src']

/-- The message of edge `t`: its norm times its source's projected feature. -/
theorem message (t : Fin 3300000) :
    val_main_v40 (F := Ideal) x0 x1 x2 (ix2 t (0 : Fin 1))
      = (val_main_v15 (F := Ideal) x1 (ix1 (srcNode x1 t)) * val_main_v15 (F := Ideal) x1 (ix1 (tgtNode x1 t)))
          * val_main_v31 (F := Ideal) x0 x2 (ix2 (srcNode x1 t) (0 : Fin 1)) := by
  rw [val_main_v40_apply, Ideal.mulf_def, src_feature]
  unfold val_main_v32
  rw [column_apply, val_main_v30_apply, Ideal.mulf_def, src_factor, tgt_factor]

/-- The scatter's zero operand, read anywhere. -/
theorem zero_operand (i : S100000x1.Idx) : val_main_v41 (F := Ideal) i = Ideal.ofBits .f32 0x00000000#32 := rfl

/-- The bias column, read anywhere: the one bias entry. -/
theorem bias_column (i : S100000x1.Idx) : val_main_v45 (F := Ideal) x3 i = x3 (ix1 (0 : Fin 1)) := by
  unfold val_main_v45 val_main_v44
  exact Cert.LibVecGather.bias_apply bcast_S1_S1x1_1 bcast_S1x1_S100000x1_0_1 x3 i

/-- THE REFERENCE'S RESULT AT NODE `n`. -/
theorem ref_point (n : Fin 100000) :
    val_main_v46 (F := Ideal) x0 x1 x2 x3 (ix2 n (0 : Fin 1))
      = (Ideal.ofBits .f32 0x00000000#32
          + ∑ t ∈ Finset.univ.filter (fun t : Fin 3300000 => (val_main_v6 (F := Ideal) x1 (ix1 t)).toInt = (n.val : Int)),
              (val_main_v15 (F := Ideal) x1 (ix1 (srcNode x1 t)) * val_main_v15 (F := Ideal) x1 (ix1 (tgtNode x1 t)))
                * val_main_v31 (F := Ideal) x0 x2 (ix2 (srcNode x1 t) (0 : Fin 1)))
        + x3 (ix1 (0 : Fin 1)) := by
  rw [val_main_v46_apply, Ideal.addf_def, bias_column]
  refine congrArg (· + x3 (ix1 (0 : Fin 1))) ?_
  unfold val_main_v43
  refine (scatter_rows_apply _ _ _ n).trans ?_
  rw [zero_operand]
  refine congrArg (Ideal.ofBits .f32 0x00000000#32 + ·) ?_
  unfold val_main_v42
  refine Finset.sum_congr (Finset.filter_congr fun t _ => ?_) fun t _ => ?_
  · rw [column_apply]
  · exact message x0 x1 x2 t

end Cert.ReferenceIdeal.RefValue

end
-- ==== Proof.Algebra.lean ====
/-
  The algebra that joins the two programs, on the extended reals.
  A factor `c` with `0 ≤ c` and `c ≠ ⊤` distributes over any finite sum of extended reals, whatever the summands are
  (infinite ones included): for `c = 0` both sides are `0`, and a positive real `c` keeps every summand's sign and
  finiteness, so the sum's case analysis is the same before and after.
  The graph-convolution identity is then: with `d` a vector of such factors, `h` any vector, edges `t ∈ S` whose target is
  the node `n` (`Cn t = n`) and whose source is `R t`,
      d n · Σ_{t ∈ S} d (R t) · h (R t)  =  Σ_{t ∈ S} (d (R t) · d (Cn t)) · h (R t):
  the target's factor `d (Cn t) = d n` is the same for every edge of the segment, so it comes out of the segment's sum.
  Last, the factor the programs compute, `where(x > 0, rsqrt x, 0)`, is such a factor for EVERY extended real `x`.
-/
import Idealize.ShloMosaic.PureOps.Ideal
import Idealize.ShloMosaic.PureOps.Ideal.Laws
import Idealize.ShloMosaic.Lib.ValueIdx

noncomputable section

namespace Cert.Algebra

open Idealize.ShloMosaic

/-- A nonnegative factor that is not `⊤` distributes over a finite sum of extended reals. -/
theorem mul_sum_of_nonneg_ne_top {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The segment identity: the target node's factor comes out of the sum over the edges that land on it. `z` is the zero
    both scatters start from and `b` the bias added last. -/
theorem segment_factor {ι κ : Type} (S : Finset ι) (d h : κ → EReal) (R Cn : ι → κ) (n : κ)
    (hC : ∀ t ∈ S, Cn t = n) (h0 : 0 ≤ d n) (ht : d n ≠ ⊤) (z b : EReal) (hz : z = 0) :
    d n * (z + ∑ t ∈ S, d (R t) * h (R t)) + b = (z + ∑ t ∈ S, (d (R t) * d (Cn t)) * h (R t)) + b := by
  subst hz
  rw [zero_add, zero_add, mul_sum_of_nonneg_ne_top S (d n) h0 ht]
  refine congrArg (· + b) (Finset.sum_congr rfl fun t htS => ?_)
  rw [hC t htS, mul_comm (d (R t)) (d n), mul_assoc]

/-- `where(x > 0, rsqrt x, 0)` is nonnegative and not `⊤` at every extended real: at `⊥`, at a real `≤ 0` it is `0`;
    at a positive real `r` it is the real `1/√r`; at `⊤` it is `rsqrt ⊤ = 0`. -/
theorem inv_sqrt_factor (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot =>
    have : Ideal.cmp .ogt (⊥ : EReal) 0 = 0#1 := by simp [Ideal.cmp]
    rw [this, ValueIdx.select_zero]
    exact ⟨le_refl _, EReal.zero_ne_top⟩
  | coe r =>
    by_cases hr : 0 < r
    · have : Ideal.cmp .ogt ((r : ℝ) : EReal) 0 = 1#1 := by
        simp [Ideal.cmp, hr]
      rw [this, ValueIdx.select_one, Ideal.rsqrt_coe, if_neg (not_lt.mpr hr.le), if_neg hr.ne']
      exact ⟨by exact_mod_cast inv_nonneg.mpr (Real.sqrt_nonneg r), EReal.coe_ne_top _⟩
    · have : Ideal.cmp .ogt ((r : ℝ) : EReal) 0 = 0#1 := by
        simp [Ideal.cmp, hr]
      rw [this, ValueIdx.select_zero]
      exact ⟨le_refl _, EReal.zero_ne_top⟩
  | top =>
    have : Ideal.cmp .ogt (⊤ : EReal) 0 = 1#1 := by simp [Ideal.cmp]
    rw [this, ValueIdx.select_one, Ideal.rsqrt_top]
    exact ⟨le_refl _, EReal.zero_ne_top⟩

end Cert.Algebra

end
-- ==== Proof.Bridge.lean ====
/-
  The two programs compute the same function of the arrays.
  At node `n` the kernel program gives `dinv[n] · (0 + Σ_{t : col[t] = n} dinv[src t] · (x·W)[src t]) + b` and the reference
  `(0 + Σ_{t : col[t] = n} (dinv[src t] · dinv[tgt t]) · (x·W)[src t]) + b`. An edge counted in the sum has the target word `n`
  itself, so its wrapped, clamped target is `n` and `dinv[tgt t] = dinv[n]`; and `dinv[n]`, a `where(deg > 0, rsqrt deg, 0)`,
  is nonnegative and not `⊤`, so it distributes over the segment's sum (Algebra). No input needs to be finite for this.
-/
import proofs.«427858_j85693187489968_3_alg».proof.Proof.KernelRun
import proofs.«427858_j85693187489968_3_alg».proof.Proof.KernelPoint
import proofs.«427858_j85693187489968_3_alg».proof.Proof.RefPoint
import proofs.«427858_j85693187489968_3_alg».proof.Proof.Algebra

noncomputable section

namespace Cert.Bridge

open Idealize.ShloMosaic Idealize.ShloMosaic.ValueIdx Cert.NodeIndex
open Cert.KernelIdeal.KTail Cert.KernelIdeal.KValue Cert.KernelIdeal.KRun

variable (x : Cert.KernelIdeal.S100000x256.Idx → EReal) (e : Cert.KernelIdeal.S2x3200000.Idx → BitVec 32)
  (w : Cert.KernelIdeal.S256x1.Idx → EReal) (b : Cert.KernelIdeal.S1.Idx → EReal)

/-- The two programs build the same sources, targets and node factors from the edge list. -/
theorem row_eq : rowOf (F := Ideal) e = Cert.ReferenceIdeal.Read.val_main_v3 (F := Ideal) e := rfl
theorem col_eq : colOf (F := Ideal) e = Cert.ReferenceIdeal.Read.val_main_v6 (F := Ideal) e := rfl
theorem dinv_eq : dinvOf (F := Ideal) (colOf (F := Ideal) e) = Cert.ReferenceIdeal.Read.val_main_v15 (F := Ideal) e := rfl

/-- The factor column at `(r, 0)` is the factor vector at `r`. -/
theorem dcol_apply (col : Cert.KernelIdeal.S3300000.Idx → BitVec 32) (r : Fin 100000) :
    dinvColOf (F := Ideal) col (ix2 r (0 : Fin 1)) = dinvOf (F := Ideal) col (ix1 r) := by
  unfold dinvColOf
  generalize dinvOf (F := Ideal) col = d
  exact shapeCast_apply d _ (ix2 r (0 : Fin 1)) (ix1 r)
    (by rewrite [Shape.rowMajor_val_one, Shape.rowMajor_val_two]; show r.val = r.val * 1 + 0; omega)

/-- `where(D > 0, rsqrt D, 0)` is nonnegative and not `⊤` at every entry, whatever the degrees `D` are. -/
theorem factor_of_degree (D : Cert.KernelIdeal.S100000.Idx → EReal) (i : Cert.KernelIdeal.S100000.Idx) :
    0 ≤ select (cmpf (F := Ideal) (φ := .f32) .ogt D (broadcastInDim Cert.KernelIdeal.S100000 ![] Cert.KernelIdeal.Gen.bcast_S_S100000 (constant (F := Ideal) Cert.KernelIdeal.S_ .f32 0x00000000#32)))
        (Host.rsqrt (F := Ideal) (φ := .f32) D)
        (broadcastInDim Cert.KernelIdeal.S100000 ![] Cert.KernelIdeal.Gen.bcast_S_S100000 (constant (F := Ideal) Cert.KernelIdeal.S_ .f32 0x00000000#32)) i
    ∧ select (cmpf (F := Ideal) (φ := .f32) .ogt D (broadcastInDim Cert.KernelIdeal.S100000 ![] Cert.KernelIdeal.Gen.bcast_S_S100000 (constant (F := Ideal) Cert.KernelIdeal.S_ .f32 0x00000000#32)))
        (Host.rsqrt (F := Ideal) (φ := .f32) D)
        (broadcastInDim Cert.KernelIdeal.S100000 ![] Cert.KernelIdeal.Gen.bcast_S_S100000 (constant (F := Ideal) Cert.KernelIdeal.S_ .f32 0x00000000#32)) i ≠ ⊤ := by
  show 0 ≤ Scalar.select (Ideal.cmp .ogt (D i) (Ideal.ofBits .f32 0x00000000#32)) (Ideal.rsqrt (D i)) (Ideal.ofBits .f32 0x00000000#32)
    ∧ Scalar.select (Ideal.cmp .ogt (D i) (Ideal.ofBits .f32 0x00000000#32)) (Ideal.rsqrt (D i)) (Ideal.ofBits .f32 0x00000000#32) ≠ ⊤
  rw [Ideal.ofBits_zero_f32]
  exact Cert.Algebra.inv_sqrt_factor _

/-- A node factor is nonnegative and not `⊤`. -/
theorem dinv_factor (col : Cert.KernelIdeal.S3300000.Idx → BitVec 32) (i : Cert.KernelIdeal.S100000.Idx) :
    0 ≤ dinvOf (F := Ideal) col i ∧ dinvOf (F := Ideal) col i ≠ ⊤ := by
  unfold dinvOf
  generalize degOf (F := Ideal) col = D
  exact factor_of_degree D i

/-- The scaled projection at `(r, 0)`: the node's factor times the reference's projected feature there. -/
theorem scaled_apply (d : Cert.KernelIdeal.S100000x1.Idx → EReal) (r : Fin 100000) :
    scaledProj x w d (ix2 r (0 : Fin 1))
      = d (ix2 r (0 : Fin 1)) * Cert.ReferenceIdeal.Read.val_main_v31 (F := Ideal) x w (ix2 r (0 : Fin 1)) := by
  rw [Cert.ReferenceIdeal.Read.val_main_v31_apply]
  rfl

/-- THE TWO RESULTS ARE ONE FUNCTION of the four arrays. -/
theorem out_eq : kernelOut x e w b = Cert.ReferenceIdeal.Read.val_main_v46 (F := Ideal) x e w b := by
  funext i
  obtain ⟨n, z, rfl⟩ : ∃ (n : Fin 100000) (z : Fin 1), i = ix2 n z := ⟨i 0, i 1, eq_ix2 i⟩
  obtain rfl : z = 0 := Subsingleton.elim _ _
  unfold kernelOut
  rw [tail_point, Cert.ReferenceIdeal.RefValue.ref_point]
  unfold Cert.ReferenceIdeal.RefValue.srcNode Cert.ReferenceIdeal.RefValue.tgtNode
  rw [← dinv_eq e, ← row_eq e, ← col_eq e]
  -- from here on the sources, the targets, the factors and the projected features are opaque
  have hfac := dinv_factor (colOf (F := Ideal) e)
  have hdc := dcol_apply (colOf (F := Ideal) e)
  generalize dinvColOf (F := Ideal) (colOf (F := Ideal) e) = dc at hdc ⊢
  generalize dinvOf (F := Ideal) (colOf (F := Ideal) e) = dv at hfac hdc ⊢
  generalize rowOf (F := Ideal) e = src
  generalize colOf (F := Ideal) e = tgt
  simp only [scaled_apply, hdc]
  generalize Cert.ReferenceIdeal.Read.val_main_v31 (F := Ideal) x w = hv
  refine Cert.Algebra.segment_factor _ (fun r : Fin 100000 => dv (ix1 r)) (fun r : Fin 100000 => hv (ix2 r (0 : Fin 1)))
    (fun t : Fin 3300000 => nodeOf (wrapWord (src (ix1 t)))) (fun t : Fin 3300000 => nodeOf (wrapWord (tgt (ix1 t)))) n ?_
    (hfac _).1 (hfac _).2 _ _ Ideal.ofBits_zero_f32
  intro t ht
  exact nodeOf_wrapWord_of_eq _ n (Finset.mem_filter.mp ht).2

end Cert.Bridge

end
-- ==== Proof.lean ====
/-
  A graph-convolution layer with one output channel, `out = D^{-1/2} (A + I) D^{-1/2} (x W) + b`, over 100000 nodes and
  3200000 edges (plus one self loop per node), the kernel program against its reference, at the ideal instance (floats are
  extended reals, operations exact).

  Both programs build from the edge list the source `row[t]` and the target `col[t]` of every edge, the in-degrees
  `deg = scatter-add of ones at col`, and the node factors `dinv = where(deg > 0, rsqrt deg, 0)`.
  The REFERENCE gives edge `t` the norm `dinv[row t] · dinv[col t]`, the message `norm · (x W)[row t]`, and scatter-adds the
  messages at the targets; then the bias.
  The KERNEL PROGRAM computes `s = dinv · (x W)` in one pallas region (ten row blocks of 10000; at each block the feature
  block times the whole weight column into a zero accumulator, scaled row by row), then gathers `s[row t]`, scatter-adds at
  the targets, scales node `n`'s sum with `dinv[n]`, and adds the bias.

  Index words are read signed. A gather wraps a negative word by the node count and clamps into the nodes; a scatter does
  neither and drops an update whose word is no node. So the edges summed at node `n` are, in both programs, those whose
  target word is `n` itself; for these the reference's gathered `dinv[col t]` is `dinv[n]`, the same factor for the whole
  segment. It is nonnegative and not `⊤` (whatever the degree), so it distributes over the segment's sum of extended
  reals, finite or not: the two results are equal at every node, for ALL inputs (the precondition is not used).

  The three frames: the two kernel programs' are the generated frame certificates; the reference's is its run with the
  result dropped. The idealization rewrote nothing, so `preserves` is `True`.
-/
import proofs.«427858_j85693187489968_3_alg».proof.Defs
import proofs.«427858_j85693187489968_3_alg».proof.Proof.Gen.Kernel
import proofs.«427858_j85693187489968_3_alg».proof.Proof.Gen.Kernel.Skeleton
import proofs.«427858_j85693187489968_3_alg».proof.Proof.Gen.Kernel.Launch
import proofs.«427858_j85693187489968_3_alg».proof.Proof.Gen.Kernel.Points
import proofs.«427858_j85693187489968_3_alg».proof.Proof.Gen.Kernel.Frame
import proofs.«427858_j85693187489968_3_alg».proof.Proof.Gen.KernelIdeal
import proofs.«427858_j85693187489968_3_alg».proof.Proof.Gen.KernelIdeal.Skeleton
import proofs.«427858_j85693187489968_3_alg».proof.Proof.Gen.KernelIdeal.Launch
import proofs.«427858_j85693187489968_3_alg».proof.Proof.Gen.KernelIdeal.Points
import proofs.«427858_j85693187489968_3_alg».proof.Proof.Gen.KernelIdeal.Frame
import proofs.«427858_j85693187489968_3_alg».proof.Proof.Gen.ReferenceIdeal
import proofs.«427858_j85693187489968_3_alg».proof.Proof.Gen.Pre_finite_inputs
import proofs.«427858_j85693187489968_3_alg».proof.Proof.RefRun
import proofs.«427858_j85693187489968_3_alg».proof.Proof.RefRead
import proofs.«427858_j85693187489968_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the same result array: the kernel program's at
    `kernelOut` of the arguments, the reference's at its last stage of the same arguments, one function (`Bridge.out_eq`). -/
theorem algebraic : Cert.algebraic_KernelIdeal_ReferenceIdeal := by
  intro m ρ m' ρ' _ hagree
  refine ⟨fun c => Cert.KernelIdeal.KRun.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2]
  exact (Cert.Bridge.out_eq _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
